-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S8x1024 : Shape := ⟨2, ![8, 1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_

variable [Facts]

def fn {F : FTy → Type} [FloatOps F] (main_arg0 : FVec F S8x1024x1024 .f32) (main_arg1 : FVec F S8x1024x1024 .f32) (main_arg2 : FVec F S8x1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S8x1024x1024 .f32 := Host.absf main_arg1
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  let main_v9 : FVec F S8x1024 .f32 := Host.absf main_arg2
  let main_cst_2 : FVec F S_ .f32 := constant S_ .f32 0x7F800000#32
  let main_v10 : FVec F S8x1024 .f32 := broadcastInDim S8x1024 ![] bcast_S_S8x1024 main_cst_2
  let main_v11 : IVec S8x1024 1 := cmpf .olt main_v9 main_v10
  let main_c_3 : IVec S_ 1 := constantI S_ 1 1#1
  let main_v12 : IVec S_ 1 := (fun x v => Host.reduce IntOp.andi x v reducesTo_S8x1024_S_d0_1 h_S_) main_v11 main_c_3
  let main_v13 : IVec S_ 1 := andi main_v8 main_v12
  main_v13
-- ==== Kernel.lean ====
abbrev S8x1024x1024 : Shape := ⟨3, ![8, 1024, 1024]⟩
abbrev S8x1024 : Shape := ⟨2, ![8, 1024]⟩
abbrev S8x1x1024 : Shape := ⟨3, ![8, 1, 1024]⟩
abbrev S1x512x1024 : Shape := ⟨3, ![1, 512, 1024]⟩
abbrev S1x1024x1024 : Shape := ⟨3, ![1, 1024, 1024]⟩
abbrev S1x1x1024 : Shape := ⟨3, ![1, 1, 1024]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8x1024x1024, .f32⟩
  | .hbm, ⟨1, _⟩ => ⟨S8x1024x1024, .f32⟩
  | .hbm, ⟨2, _⟩ => ⟨S8x1024, .f32⟩
  | .hbm, ⟨3, _⟩ => ⟨S8x1x1024, .f32⟩
  | .hbm, ⟨4, _⟩ => ⟨S8x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x512x1024, .f32⟩
  | .local _ .vmem, ⟨7, _⟩ => ⟨S1x512x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x1024_S8x1x1024 : S8x1024.ShapeCasts S8x1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S512x1024 : S1x1024.Broadcasts S512x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x1024x1024.size a
  hwx0_0 : ∀ i : grid0.Coords, EltTy.bits .f32 = 32 ∨ (Rect.block (s := S8x1024x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x1024x1024.size a
  hwx0_1 : ∀ i : grid0.Coords, EltTy.bits .f32 = 32 ∨ (Rect.block (s := S8x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x1024.size a
  hwx0_2 : ∀ i : grid0.Coords, EltTy.bits .f32 = 32 ∨ (Rect.block (s := S8x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S8x1024x1024.size a
  hwx0_3 : ∀ i : grid0.Coords, EltTy.bits .f32 = 32 ∨ (Rect.block (s := S8x1024x1024) S1x512x1024.size (cc0_transform_3 i) (hinb0_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x1024x1024 : Shape := ⟨3, ![8, 1024, 1024]⟩
abbrev S8x1024 : Shape := ⟨2, ![8, 1024]⟩
abbrev S8x1x1024 : Shape := ⟨3, ![8, 1, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S8x1024x1024, .f32⟩
  | .hbm, ⟨2, _⟩ => ⟨S8x1024, .f32⟩
  | .hbm, ⟨3, _⟩ => ⟨S8x1024x1024, .f32⟩
  | .hbm, ⟨4, _⟩ => ⟨S8x1x1024, .f32⟩
  | .hbm, ⟨5, _⟩ => ⟨S8x1024x1024, .f32⟩
  | .hbm, ⟨6, _⟩ => ⟨S8x1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S8x1024_S8x1x1024_0_2 : S8x1024.BroadcastsInDim S8x1x1024 (![0, 2] : Fin 2 → Fin S8x1x1024.rank)
  bcast_S8x1x1024_S8x1024x1024_0_1_2 : S8x1x1024.BroadcastsInDim S8x1024x1024 (![0, 1, 2] : Fin 3 → Fin S8x1024x1024.rank)
  dot_S8x1024x1024_S8x1024x1024_S8x1024x1024_2_1_1_2_0_0_wf : DotDims.WF S8x1024x1024 S8x1024x1024 S8x1024x1024 [2] [1] [1] [2] [0] [0]

variable [Facts₀]

def dot_S8x1024x1024_S8x1024x1024_S8x1024x1024_2_1_1_2_0_0 : DotDims S8x1024x1024 S8x1024x1024 S8x1024x1024 where
  lhsContracting := [2]
  rhsContracting := [1]
  lhsNonContracting := [1]
  rhsNonContracting := [2]
  lhsBatch := [0]
  rhsBatch := [0]
  wf := dot_S8x1024x1024_S8x1024x1024_S8x1024x1024_2_1_1_2_0_0_wf

class Facts : Prop extends Facts₀ where

variable [Facts]
-- ==== Proof.BatchAffine.lean ====
/-
  The function both programs compute, over the extended reals.

  For a batch of 8 problems, each a [1024, 1024] matrix of inputs against a [1024, 1024] matrix of weights with a
  bias row of length 1024, entry (g, r, o) of the result is the dot product of row r of problem g's inputs with
  column o of problem g's weights, plus entry o of problem g's bias:

      out(g, r, o) = (sum over k < 1024 of x(g, r, k) * w(g, k, o)) + b(g, o).

  Nothing is assumed of the entries: the sum and the one addition are taken in the extended reals as they stand.
-/
import Idealize.ShloMosaic.PureOps.Ideal
import Idealize.ShloMosaic.Lib.ValueIdx

noncomputable section

namespace BatchAffine

open Idealize.ShloMosaic Idealize.ShloMosaic.ValueIdx

/-- The batched affine map: a matrix product per batch entry, plus that entry's bias row added to every row. -/
def affine (x w : FVec Ideal ⟨3, ![8, 1024, 1024]⟩ .f32) (b : FVec Ideal ⟨2, ![8, 1024]⟩ .f32) :
    FVec Ideal ⟨3, ![8, 1024, 1024]⟩ .f32 :=
  fun i => (∑ k : Fin 1024, x (ix3 (i 0) (i 1) k) * w (ix3 (i 0) k (i 2))) + b (ix2 (i 0) (i 2))

/-- The same at named coordinates. -/
theorem affine_ix3 (x w : FVec Ideal ⟨3, ![8, 1024, 1024]⟩ .f32) (b : FVec Ideal ⟨2, ![8, 1024]⟩ .f32)
    (g : Fin 8) (r o : Fin 1024) :
    affine x w b (ix3 g r o) = (∑ k : Fin 1024, x (ix3 g r k) * w (ix3 g k o)) + b (ix2 g o) := rfl

end BatchAffine

end
-- ==== Proof.ReferenceValue.lean ====
/-
  The reference's result is the batched affine map.

  The reference contracts axis 2 of the inputs with axis 1 of the weights, batch axis 0 against batch axis 0, so
  its product at (g, r, o) is the sum over k of x(g, r, k) * w(g, k, o). The bias [8, 1024] is first laid out as
  [8, 1, 1024] and then repeated along the middle axis, so at (g, r, o) it reads b(g, o). Their sum is the
  batched affine map at (g, r, o).
-/
import proofs.«115073_g54073638257189_cont_9to1_m_703_5_alg».proof.Proof.Gen.ReferenceIdeal.Read
import proofs.«115073_g54073638257189_cont_9to1_m_703_5_alg».proof.Proof.BatchAffine

noncomputable section

namespace Cert.ReferenceIdeal.RefValue

open Cert.ReferenceIdeal Idealize.ShloMosaic Idealize.ShloMosaic.ValueIdx

/-- The reference's last stage, as a function of the three argument arrays, is the batched affine map. -/
theorem stage_eq_affine (x w : FVec Ideal S8x1024x1024 .f32) (b : FVec Ideal S8x1024 .f32) :
    Read.val_main_v3 (F := Ideal) x w b = BatchAffine.affine x w b := by
  funext i
  have el : ∀ k : Fin 1024, Read.lidx_main_v0 i k = ix3 (i 0) (i 1) k := fun k =>
    funext fun a => by match a with | ⟨0, _⟩ => rfl | ⟨1, _⟩ => rfl | ⟨2, _⟩ => rfl
  have er : ∀ k : Fin 1024, Read.ridx_main_v0 i k = ix3 (i 0) k (i 2) := fun k =>
    funext fun a => by match a with | ⟨0, _⟩ => rfl | ⟨1, _⟩ => rfl | ⟨2, _⟩ => rfl
  have eb : Read.idx_main_v1 (Read.idx_main_v2 i) = ix2 (i 0) (i 2) :=
    funext fun a => by match a with | ⟨0, _⟩ => rfl | ⟨1, _⟩ => rfl
  rw [Read.val_main_v3_apply, Read.val_main_v0_apply, Read.val_main_v2_apply, Read.val_main_v1_apply]
  simp only [el, er, eb, Ideal.addf_def]
  rfl

end Cert.ReferenceIdeal.RefValue

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.BlockValue.lean ====
/-
  One grid point's arithmetic, entry by entry.

  At a grid point the body holds a [1, 512, 1024] block of inputs, a [1, 1024, 1024] block of weights and a
  [1, 1, 1024] block of bias. It drops the leading unit axis of the first two, multiplies the [512, 1024] matrix by
  the [1024, 1024] matrix into a zero accumulator, adds the bias row to every row of the product, and puts the unit
  axis back. So entry (0, r, o) of what it stores is

      (sum over k < 1024 of x0(0, r, k) * x1(0, k, o)) + x2(0, 0, o).

  A product into a zero accumulator is, over the extended reals, the bare contraction sum; the contraction is the
  left matrix's axis 1 against the right matrix's axis 0 with no batch axis, so the sum runs over the plain index k.
-/
import proofs.«115073_g54073638257189_cont_9to1_m_703_5_alg».proof.Proof.Gen.KernelIdeal.Skeleton
import proofs.«115073_g54073638257189_cont_9to1_m_703_5_alg».proof.Proof.LibPlainDot
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.ValueIdx

/-- Dropping the leading unit axis of the inputs' block: entry (r, k) of the matrix is entry (0, r, k) of the block. -/
theorem inputs_cast_apply (x0 : Vec Ideal S1x512x1024 .f32) (r : Fin 512) (k : Fin 1024) :
    shapeCast S512x1024 x0 shapeCasts_S1x512x1024_S512x1024 (ix2 r k) = x0 (ix3 0 r k) :=
  shapeCast_apply _ _ (ix2 r k) (ix3 0 r k) (by rw [Shape.rowMajor_val_two, Shape.rowMajor_val_three]; simp)

/-- Dropping the leading unit axis of the weights' block: entry (k, o) of the matrix is entry (0, k, o) of the block. -/
theorem weights_cast_apply (x1 : Vec Ideal S1x1024x1024 .f32) (k o : Fin 1024) :
    shapeCast S1024x1024 x1 shapeCasts_S1x1024x1024_S1024x1024 (ix2 k o) = x1 (ix3 0 k o) :=
  shapeCast_apply _ _ (ix2 k o) (ix3 0 k o) (by rw [Shape.rowMajor_val_two, Shape.rowMajor_val_three]; simp)

/-- The bias block [1, 1, 1024] laid out as one row and repeated down the 512 rows: entry (r, o) is entry (0, 0, o). -/
theorem bias_rows_apply (x2 : Vec Ideal S1x1x1024 .f32) (r : Fin 512) (o : Fin 1024) :
    broadcastTo S512x1024 (shapeCast S1x1024 x2 shapeCasts_S1x1x1024_S1x1024) broadcasts_S1x1024_S512x1024 (ix2 r o)
      = x2 (ix3 0 0 o) := by
  rw [broadcastTo_apply _ _ (ix2 r o) (ix2 0 o) (fun a => by
    match a with
    | ⟨0, _⟩ => rfl
    | ⟨1, _⟩ => rfl)]
  exact shapeCast_apply _ _ (ix2 0 o) (ix3 0 0 o) (by rw [Shape.rowMajor_val_two, Shape.rowMajor_val_three]; simp)

/-- Entry (0, r, o) of the stored block is row r of the inputs' block against column o of the weights' block, plus entry
    o of the bias block. -/
theorem payload_apply (x0 : Vec Ideal S1x512x1024 .f32) (x1 : Vec Ideal S1x1024x1024 .f32) (x2 : Vec Ideal S1x1x1024 .f32)
    (r : Fin 512) (o : Fin 1024) :
    k0_pay1 (F := Ideal) x0 x1 x2 (ix3 0 r o) = (∑ k : Fin 1024, x0 (ix3 0 r k) * x1 (ix3 0 k o)) + x2 (ix3 0 0 o) := by
  unfold k0_pay1
  rw [shapeCast_apply _ _ (ix3 0 r o) (ix2 r o) (by rw [Shape.rowMajor_val_two, Shape.rowMajor_val_three]; simp)]
  rw [addf_apply, bias_rows_apply]
  refine congrArg (· + x2 (ix3 0 0 o)) ?_
  refine (Ideal.matmul_constant_zero_apply dot_S512x1024_S1024x1024_S512x1024_1_0_0_1_n_n none _ _ (ix2 r o)).trans ?_
  rw [PlainDot.sum_eq _ rfl rfl rfl rfl rfl rfl]
  exact Finset.sum_congr rfl fun k _ => congrArg₂ (· * ·) (inputs_cast_apply x0 r k) (weights_cast_apply x1 k o)

end Cert.KernelIdeal.BlockValue

end
-- ==== Proof.ArrayValue.lean ====
/-
  From grid points to the whole result array.

  The grid is 8 by 2: point (g, h) handles batch entry g and the rows 512 h ≤ p < 512 h + 512 of its result. At that
  point the body sees rows 512 h .. 512 h + 511 of batch entry g of the inputs, all of batch entry g of the weights,
  and row g of the bias, and stores a [1, 512, 1024] block whose entry (0, r, o) is

      (sum over k < 1024 of x(g, 512 h + r, k) * w(g, k, o)) + b(g, o),

  which is the batched affine map at (g, 512 h + r, o). The 16 output blocks are disjoint and fill [8, 1024, 1024], so
  the array the kernel leaves is the batched affine map of its three arguments.
-/
import proofs.«115073_g54073638257189_cont_9to1_m_703_5_alg».proof.Proof.Gen.KernelIdeal.Value
import proofs.«115073_g54073638257189_cont_9to1_m_703_5_alg».proof.Proof.BlockValue
import proofs.«115073_g54073638257189_cont_9to1_m_703_5_alg».proof.Proof.BatchAffine
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The corner every whole-block access starts from, as the constant function zero. -/
theorem origin3 : (![0, 0, 0] : Fin 3 → Nat) = fun _ => 0 := funext fun a => by fin_cases a <;> rfl

/-- A block's leading axis has extent one, so an index into it is (0, r, o). -/
theorem block_idx (j : S1x512x1024.Idx) : j = ix3 0 (j 1) (j 2) := by
  funext a
  match a with
  | ⟨0, _⟩ => exact Fin.ext (by have h : (j 0).val < 1 := (j 0).isLt; show (j 0).val = 0; omega)
  | ⟨1, _⟩ => rfl
  | ⟨2, _⟩ => rfl

/-- One grid point against the whole arrays. If the inputs' block holds rows `row r` of batch entry `g` of X, the weights' block
    holds batch entry `g` of W, and the bias block holds row `g` of B, then entry (0, r, o) of what the body stores is the
    batched affine map of X, W, B at (g, row r, o): the same contraction sum and the same bias entry on both sides. -/
theorem point_value (X W : FVec Ideal S8x1024x1024 .f32) (B : FVec Ideal S8x1024 .f32)
    (x0 : Vec Ideal S1x512x1024 .f32) (x1 : Vec Ideal S1x1024x1024 .f32) (x2 : Vec Ideal S1x1x1024 .f32)
    (g : Fin 8) (row : Fin 512 → Fin 1024)
    (hx0 : ∀ r k, x0 (ix3 0 r k) = X (ix3 g (row r) k))
    (hx1 : ∀ k o, x1 (ix3 0 k o) = W (ix3 g k o))
    (hx2 : ∀ o, x2 (ix3 0 0 o) = B (ix2 g o))
    (r : Fin 512) (o : Fin 1024) :
    k0_pay1 (F := Ideal) x0 x1 x2 (ix3 0 r o) = BatchAffine.affine X W B (ix3 g (row r) o) := by
  rw [BlockValue.payload_apply, BatchAffine.affine_ix3]
  exact congrArg₂ (· + ·) (Finset.sum_congr rfl fun k _ => congrArg₂ (· * ·) (hx0 r k) (hx1 k o)) (hx2 o)

/-- The array the bias window reads is the bias argument [8, 1024] laid out as [8, 1, 1024], which is all the program does
    before the grid runs. -/
theorem bias_array (c : Dev nD) :
    (V m c main_call0_v0 : S8x1x1024.Idx → EReal)
      = shapeCast S8x1x1024 (m ((c : Thread nD τ).loc main_arg2)) shapeCasts_S8x1024_S8x1x1024 := by
  dsimp only [V, hostOps0]; after_results; rfl

/-- Entry (g, 0, o) of that array is entry (g, o) of the bias argument: both are at row-major position g * 1024 + o. -/
theorem bias_array_apply (c : Dev nD) (g : Fin 8) (o : Fin 1024) :
    V m c main_call0_v0 (ix3 g 0 o) = m ((c : Thread nD τ).loc main_arg2) (ix2 g o) := by
  rw [bias_array]
  exact shapeCast_apply _ _ (ix3 g 0 o) (ix2 g o) (by rw [Shape.rowMajor_val_two, Shape.rowMajor_val_three]; simp)

/-- Where each window's block sits at a grid point (g, h) of the 8 by 2 grid, checked over the 16 points: the inputs' block
    and the output's block are block (g, h, 0); the weights' and the bias block are block (g, 0, 0), whatever h is; and
    g ≤ 7, h ≤ 1. -/
theorem index_facts : ∀ t : Fin cfg0.N,
    win0_0.index t (0 : Fin 3) = win0_3.index t (0 : Fin 3) ∧ win0_0.index t (1 : Fin 3) = win0_3.index t (1 : Fin 3) ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 7 ∧ win0_3.index t (1 : Fin 3) ≤ 1 ∧ win0_3.index t (2 : Fin 3) = 0 :=
  (by decide +kernel : ∀ t : Fin grid0.N, _)

/-- Every block (g, h, 0) of the output array, g < 8 and h < 2, is some grid point's. -/
theorem index_onto : ∀ (q0 : Fin 8) (q1 : Fin 2), ∃ t : Fin cfg0.N, win0_3.index t = ![q0.val, q1.val, 0] :=
  (by decide +kernel : ∀ (q0 : Fin 8) (q1 : Fin 2), ∃ t : Fin grid0.N, win0_3.index t = ![q0.val, q1.val, 0])

/-- What a grid point writes back is its block of the batched affine map of the argument arrays. A block's coordinate on
    an axis is (block index) * (block extent) + (coordinate inside the block); with the block positions above, entry
    (0, r, k) of the inputs' block is X(g, 512 h + r, k), entry (0, k, o) of the weights' block is W(g, k, o), entry
    (0, 0, o) of the bias block is b(g, o), and entry (0, r, o) of the output block lands at (g, 512 h + r, o). -/
theorem flushed_eq (c : Dev nD) (t : Fin cfg0.N) :
    (dats m 0 c).flushed 3 t = ((cfg0.win 3).blk t).view.read (Elt Ideal)
      (BatchAffine.affine (V m c main_arg0) (V m c main_arg1) (m ((c : Thread nD τ).loc main_arg2))) := by
  rw [Value.flushed3]
  unfold out0_3
  rw [View.canon_unit_zero origin3]
  simp only [View.ld_unit_zero (S := S1x512x1024) origin3, View.ld_unit_zero (S := S1x1024x1024) origin3, View.ld_unit_zero (S := S1x1x1024) origin3]
  obtain ⟨a0, a1, a2, w0, w1, w2, b0, b1, b2, o0, o1, o2⟩ := index_facts t
  funext j
  obtain ⟨r, o, rfl⟩ : ∃ (r : Fin 512) (o : Fin 1024), j = ix3 0 r o := ⟨j 1, j 2, block_idx j⟩
  show k0_pay1 (F := Ideal) (iblk m c 0 t) (iblk m c 1 t) (iblk m c 2 t) (ix3 0 r o)
    = BatchAffine.affine (V m c main_arg0) (V m c main_arg1) (m ((c : Thread nD τ).loc main_arg2)) (((cfg0.win 3).blk t).view.emb (ix3 0 r o))
  refine (point_value (V m c main_arg0) (V m c main_arg1) (m ((c : Thread nD τ).loc main_arg2))
    (iblk m c 0 t) (iblk m c 1 t) (iblk m c 2 t) ⟨win0_3.index t (0 : Fin 3), by omega⟩
    (fun r => ⟨win0_3.index t (1 : Fin 3) * 512 + r.val, by have := r.isLt; omega⟩) ?_ ?_ ?_ r o).trans ?_
  · intro r k
    show V m c main_arg0 (((cfg0.win 0).blk t).view.emb (ix3 0 r k)) = _
    refine congrArg (V m c main_arg0) (funext fun a => Fin.ext ?_)
    match a with
    | ⟨0, _⟩ => show win0_0.index t (0 : Fin 3) * 1 + 1 * (0 : Fin 1).val = win0_3.index t (0 : Fin 3); simp only [Fin.val_zero]; omega
    | ⟨1, _⟩ => show win0_0.index t (1 : Fin 3) * 512 + 1 * r.val = win0_3.index t (1 : Fin 3) * 512 + r.val; omega
    | ⟨2, _⟩ => show win0_0.index t (2 : Fin 3) * 1024 + 1 * k.val = k.val; omega
  · intro k o
    show V m c main_arg1 (((cfg0.win 1).blk t).view.emb (ix3 0 k o)) = _
    refine congrArg (V m c main_arg1) (funext fun a => Fin.ext ?_)
    match a with
    | ⟨0, _⟩ => show win0_1.index t (0 : Fin 3) * 1 + 1 * (0 : Fin 1).val = win0_3.index t (0 : Fin 3); simp only [Fin.val_zero]; omega
    | ⟨1, _⟩ => show win0_1.index t (1 : Fin 3) * 1024 + 1 * k.val = k.val; omega
    | ⟨2, _⟩ => show win0_1.index t (2 : Fin 3) * 1024 + 1 * o.val = o.val; omega
  · intro o
    show V m c main_call0_v0 (((cfg0.win 2).blk t).view.emb (ix3 0 0 o)) = _
    refine (congrArg (V m c main_call0_v0) (funext fun a => Fin.ext ?_)).trans
      (bias_array_apply m c ⟨win0_3.index t (0 : Fin 3), by omega⟩ o)
    match a with
    | ⟨0, _⟩ => show win0_2.index t (0 : Fin 3) * 1 + 1 * (0 : Fin 1).val = win0_3.index t (0 : Fin 3); simp only [Fin.val_zero]; omega
    | ⟨1, _⟩ => show win0_2.index t (1 : Fin 3) * 1 + 1 * (0 : Fin 1).val = 0; simp only [Fin.val_zero]; omega
    | ⟨2, _⟩ => show win0_2.index t (2 : Fin 3) * 1024 + 1 * o.val = o.val; omega
  · refine congrArg (BatchAffine.affine (V m c main_arg0) (V m c main_arg1) (m ((c : Thread nD τ).loc main_arg2))) (funext fun a => Fin.ext ?_)
    match a with
    | ⟨0, _⟩ => show win0_3.index t (0 : Fin 3) = win0_3.index t (0 : Fin 3) * 1 + 1 * (0 : Fin 1).val; simp only [Fin.val_zero]; omega
    | ⟨1, _⟩ => show win0_3.index t (1 : Fin 3) * 512 + r.val = win0_3.index t (1 : Fin 3) * 512 + 1 * r.val; omega
    | ⟨2, _⟩ => show o.val = win0_3.index t (2 : Fin 3) * 1024 + 1 * o.val; omega

/-- An index lies in a grid point's output block exactly when each coordinate lies in the block's range on its axis. -/
theorem mem_block (t : Fin cfg0.N) (i : S8x1024x1024.Idx) :
    i ∈ ((cfg0.win 3).blk t).view.set ↔ ∀ a : Fin 3, win0_3.index t a * S1x512x1024.size a ≤ (i a).val ∧ (i a).val < win0_3.index t a * S1x512x1024.size a + S1x512x1024.size a := by
  show i ∈ ((View.whole main_v0).slice (win0_3.rect t)).set ↔ _
  rw [View.set_slice_whole, Rect.mem_set_unit]
  exact Iff.rfl

/-- The output blocks cover the array: (g, p, o) lies in the block of the grid point (g, p / 512), whose rows are
    512 (p / 512) ≤ p < 512 (p / 512) + 512 and whose other two axes are whole. -/
theorem covered (i : S8x1024x1024.Idx) :
    ∃ t : Fin cfg0.N, (cfg0.win 3).flush t = true ∧ i ∈ ((cfg0.win 3).blk t).view.set := by
  have hi0 : (i 0).val < 8 := (i 0).isLt
  have hi1 : (i 1).val < 1024 := (i 1).isLt
  have hi2 : (i 2).val < 1024 := (i 2).isLt
  obtain ⟨t, ht⟩ := index_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

/-- So after all 16 grid points the output array is the batched affine map of the three arguments as launched. -/
theorem final (c : Dev nD) :
    (dats m 0 c).arrAt 3 cfg0.N = BatchAffine.affine (m ((c : Thread nD τ).loc main_arg0)) (m ((c : Thread nD τ).loc main_arg1)) (m ((c : Thread nD τ).loc main_arg2)) := by
  rw [(dats m 0 c).arrAt_eq_of_cover 3 _ (fun t _ => flushed_eq m c t) covered, V_main_arg0, V_main_arg1]

/-- Every fair execution of the idealized kernel ends with its result at the batched affine map of its arguments, which it leaves unchanged. -/
theorem run : θ_run defs (onTc (τ := τ) (main (F := Ideal))) ⟨m, fun _ => 0, ρ⟩ fun r => ∀ c : Dev nD,
      r.2.mem ((c : Thread nD τ).loc main_v0) = BatchAffine.affine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.lean ====
/-
  A batched matrix product with bias: out(g, r, o) = (sum over k < 1024 of x(g, r, k) * w(g, k, o)) + b(g, o), for
  8 batch entries of [1024, 1024] matrices, float32.

  The kernel walks an 8 by 2 grid; at point (g, h) it multiplies 512 rows of batch entry g's inputs by batch entry g's
  weights into a zero accumulator and adds batch entry g's bias row to every row of the product. The reference takes
  one contraction over the whole batch (batch axis 0 against 0, axis 2 against axis 1) and adds the bias repeated along
  the rows. Over the extended reals a product into a zero accumulator is the bare contraction sum, a change of tiling
  changes nothing, and both sides add the same bias entry to the same sum: entry by entry they are one function of the
  arguments, and no property of the entries (finiteness included) is used.

  Each program runs to the end with its arguments unchanged; the idealized kernel is the kernel's own text read over
  the extended reals (no operation was rewritten); and the two idealized programs end with equal results.
-/
import proofs.«115073_g54073638257189_cont_9to1_m_703_5_alg».proof.Defs
import proofs.«115073_g54073638257189_cont_9to1_m_703_5_alg».proof.Proof.Gen.Kernel
import proofs.«115073_g54073638257189_cont_9to1_m_703_5_alg».proof.Proof.Gen.Kernel.Skeleton
import proofs.«115073_g54073638257189_cont_9to1_m_703_5_alg».proof.Proof.Gen.Kernel.Launch
import proofs.«115073_g54073638257189_cont_9to1_m_703_5_alg».proof.Proof.Gen.Kernel.Points
import proofs.«115073_g54073638257189_cont_9to1_m_703_5_alg».proof.Proof.Gen.Kernel.Frame
import proofs.«115073_g54073638257189_cont_9to1_m_703_5_alg».proof.Proof.Gen.KernelIdeal
import proofs.«115073_g54073638257189_cont_9to1_m_703_5_alg».proof.Proof.Gen.KernelIdeal.Skeleton
import proofs.«115073_g54073638257189_cont_9to1_m_703_5_alg».proof.Proof.Gen.KernelIdeal.Launch
import proofs.«115073_g54073638257189_cont_9to1_m_703_5_alg».proof.Proof.Gen.KernelIdeal.Points
import proofs.«115073_g54073638257189_cont_9to1_m_703_5_alg».proof.Proof.Gen.KernelIdeal.Frame
import proofs.«115073_g54073638257189_cont_9to1_m_703_5_alg».proof.Proof.Gen.ReferenceIdeal
import proofs.«115073_g54073638257189_cont_9to1_m_703_5_alg».proof.Proof.Gen.Pre_finite_inputs
import proofs.«115073_g54073638257189_cont_9to1_m_703_5_alg».proof.Proof.Gen.KernelIdeal.Value
import proofs.«115073_g54073638257189_cont_9to1_m_703_5_alg».proof.Proof.Gen.ReferenceIdeal.Run
import proofs.«115073_g54073638257189_cont_9to1_m_703_5_alg».proof.Proof.Gen.ReferenceIdeal.Read
import proofs.«115073_g54073638257189_cont_9to1_m_703_5_alg».proof.Proof.ReferenceValue
import proofs.«115073_g54073638257189_cont_9to1_m_703_5_alg».proof.Proof.ArrayValue
import Idealize.ShloMosaic.Adequacy
import Idealize.ShloMosaic.Init

noncomputable section

namespace Cert.Proof

open Idealize.ShloMosaic Idealize.SL.Sem Cert.Kernel

/-- The kernel as printed runs to the end and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the idealized reference: its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both idealized programs end at the batched affine map of arguments that agree: the kernel block by block over
    its grid, the reference as the contraction plus the repeated bias. -/
theorem algebraic : Cert.algebraic_KernelIdeal_ReferenceIdeal := by
  intro m ρ m' ρ' _ hagree
  refine ⟨fun c => BatchAffine.affine (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v3_eq, Cert.ReferenceIdeal.RefValue.stage_eq_affine,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
